-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x4096 : Shape := ⟨3, ![8, 4096, 4096]⟩
abbrev S_ : Shape := ⟨0, ![]⟩

class Facts : Prop where
  bcast_S_S8x4096x4096 : S_.BroadcastsInDim S8x4096x4096 (![] : Fin 0 → Fin S8x4096x4096.rank)
  reducesTo_S8x4096x4096_S_d0_1_2 : S8x4096x4096.ReducesTo [0, 1, 2] S_
  h_S_ : 0 < S_.numel

variable [Facts]

def fn {F : FTy → Type} [FloatOps F] (main_arg0 : FVec F S8x4096x4096 .f32) : IVec S_ 1 :=
  let main_v0 : FVec F S8x4096x4096 .f32 := Host.absf main_arg0
  let main_cst : FVec F S_ .f32 := constant S_ .f32 0x7F800000#32
  let main_v1 : FVec F S8x4096x4096 .f32 := broadcastInDim S8x4096x4096 ![] bcast_S_S8x4096x4096 main_cst
  let main_v2 : IVec S8x4096x4096 1 := cmpf .olt main_v0 main_v1
  let main_c : IVec S_ 1 := constantI S_ 1 1#1
  let main_v3 : IVec S_ 1 := (fun x v => Host.reduce IntOp.andi x v reducesTo_S8x4096x4096_S_d0_1_2 h_S_) main_v2 main_c
  main_v3
-- ==== Kernel.lean ====
abbrev S8x4096x4096 : Shape := ⟨3, ![8, 4096, 4096]⟩
abbrev S32768x4096 : Shape := ⟨2, ![32768, 4096]⟩
abbrev S256x4096 : Shape := ⟨2, ![256, 4096]⟩

abbrev nBuf : Space → Nat
  | .hbm => 4
  | .vmem => 4
  | .smem => 0
  | _ => 0

abbrev bufTy : (tb : Table) → Fin (tcTables nBuf tb) → BufTy
  | .hbm, ⟨0, _⟩ => ⟨S8x4096x4096, .f32⟩
  | .hbm, ⟨1, _⟩ => ⟨S32768x4096, .f32⟩
  | .hbm, ⟨2, _⟩ => ⟨S32768x4096, .f32⟩
  | .hbm, ⟨3, _⟩ => ⟨S8x4096x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8x4096x4096_S32768x4096 : S8x4096x4096.ShapeCasts S32768x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  shapeCasts_S32768x4096_S8x4096x4096 : S32768x4096.ShapeCasts S8x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S32768x4096.size a
  hwx0_0 : ∀ i : grid0.Coords, EltTy.bits .f32 = 32 ∨ (Rect.block (s := S32768x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S32768x4096.size a
  hwx0_1 : ∀ i : grid0.Coords, EltTy.bits .f32 = 32 ∨ (Rect.block (s := S32768x4096) S256x4096.size (cc0_transform_1 i) (hinb0_1 i)).WholeWords (EltTy.packing .f32)

variable [Facts₀]

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x4096x4096 : Shape := ⟨3, ![8, 4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8x4096x4096, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S8x4096x4096, .f32⟩
  | .hbm, ⟨6, _⟩ => ⟨S8x4096x4096, .f32⟩
  | .hbm, ⟨7, _⟩ => ⟨S8x4096x4096, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .i1⟩
  | .hbm, ⟨17, _⟩ => ⟨S8x4096x4096, .f32⟩
  | .hbm, ⟨18, _⟩ => ⟨S8x4096x4096, .i1⟩
  | .hbm, ⟨19, _⟩ => ⟨S8x4096x4096, .f32⟩
  | .hbm, ⟨20, _⟩ => ⟨S_, .f32⟩
  | .hbm, ⟨21, _⟩ => ⟨S_, .f32⟩
  | .hbm, ⟨22, _⟩ => ⟨S8x4096x4096, .f32⟩
  | .hbm, ⟨23, _⟩ => ⟨S8x4096x4096, .f32⟩
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_cst_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩
abbrev main_v5 : Ref sig .tc := ⟨.hbm, 10, rfl⟩
abbrev main_cst_3 : Ref sig .tc := ⟨.hbm, 11, rfl⟩
abbrev main_v6 : Ref sig .tc := ⟨.hbm, 12, rfl⟩
abbrev main_v7 : Ref sig .tc := ⟨.hbm, 13, rfl⟩
abbrev main_cst_4 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_5 : Ref sig .tc := ⟨.hbm, 20, rfl⟩
abbrev main_call1_v0 : Ref sig .tc := ⟨.hbm, 21, rfl⟩
abbrev main_call1_v1 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  bcast_S_S8x4096x4096 : S_.BroadcastsInDim S8x4096x4096 (![] : Fin 0 → Fin S8x4096x4096.rank)

variable [Facts₀]

class Facts : Prop extends Facts₀ where

variable [Facts]
-- ==== Proof.Binning.lean ====
/-
  The function both programs apply to every entry of `x`, and the one fact about its constants.

  With `θ` the f32 nearest to 0.1 and `u` the f32 nearest to 1.6, an entry `x` is sent to
      0                      if x ≤ 0,
      (⌈x / θ⌉ - 1) · θ       if 0 < x ≤ u     (the lower edge of the bin of width θ that holds x),
      x                      otherwise.
  The kernel compares against the literal `u`; the reference compares against the product `θ · 16`
  that it computes. Both are the same real number: θ and u share one significand (13421773) and their
  exponents differ by four, and 16 = 2⁴, so θ · 16 = u exactly (`tenth_mul_sixteen`). Nothing else
  differs between the two sides, so no property of `x` is used: the two results agree at every
  extended real, the infinities included.
-/
import Idealize.ShloMosaic.PureOps.Ideal
import Idealize.ShloMosaic.PureOps.Vector
import Idealize.ShloMosaic.PureOps.ShapeOps

noncomputable section

namespace Cert.Binning

open Idealize.ShloMosaic

variable {F : FTy → Type} [FloatOps F]

/-- One entry's image: zero at or below zero, the lower edge of its bin up to `u`, itself above. -/
def bin (x : F .f32) : F .f32 :=
  Scalar.select (FloatOps.cmpf .ole x (FloatOps.ofBits .f32 0x00000000#32)) (FloatOps.ofBits .f32 0x00000000#32)
    (Scalar.select (FloatOps.cmpf .ole x (FloatOps.ofBits .f32 0x3FCCCCCD#32))
      (FloatOps.mulf
        (FloatOps.subf (FloatOps.ceil (FloatOps.divf x (FloatOps.ofBits .f32 0x3DCCCCCD#32))) (FloatOps.ofBits .f32 0x3F800000#32))
        (FloatOps.ofBits .f32 0x3DCCCCCD#32))
      x)

/-- Applying a function entry by entry commutes with re-reading an array at another shape: a reshape only
    moves entries, it does not look at them. -/
theorem shapeCast_map {s t : Shape} {α β : Type} (f : α → β) (x : s.Idx → α) (h : s.ShapeCasts t) :
    shapeCast t (fun j => f (x j)) h = fun i => f (shapeCast t x h i) := rfl

/-- θ, the f32 nearest to 0.1, is 13421773 / 2²⁷. -/
theorem ofBits_tenth : Ideal.ofBits .f32 0x3DCCCCCD#32 = ((13421773 / 134217728 : ℝ) : EReal) := by
  simp [Ideal.ofBits, Ideal.ieee, -EReal.coe_mul]; norm_num

/-- The pattern of 16.0 is the real 16. -/
theorem ofBits_sixteen : Ideal.ofBits .f32 0x41800000#32 = ((16 : ℝ) : EReal) := by
  simp [Ideal.ofBits, Ideal.ieee, -EReal.coe_mul]; norm_num

/-- u, the f32 nearest to 1.6, is 13421773 / 2²³. -/
theorem ofBits_upper : Ideal.ofBits .f32 0x3FCCCCCD#32 = ((13421773 / 8388608 : ℝ) : EReal) := by
  simp [Ideal.ofBits, Ideal.ieee, -EReal.coe_mul]; norm_num

/-- θ · 16 = u, exactly: the reference's computed threshold is the kernel's literal. -/
theorem tenth_mul_sixteen :
    (Ideal.ofBits .f32 0x3DCCCCCD#32 : EReal) * Ideal.ofBits .f32 0x41800000#32 = Ideal.ofBits .f32 0x3FCCCCCD#32 := by
  rw [ofBits_tenth, ofBits_sixteen, ofBits_upper, ← EReal.coe_mul]
  norm_num

end Cert.Binning

end
-- ==== Proof.KernelBins.lean ====
/-
  What the kernel leaves in its result: `bin` of the argument, entry by entry.

  The program re-reads `x : [8, 4096, 4096]` as 32768 rows of 4096, runs one region over those rows, and re-reads
  the region's result at the argument's shape. The region's grid has 128 points; point `t` takes rows
  256·t … 256·t + 255 (all 4096 columns), applies the body, and writes the same rows of the output. The body is
  a chain of operations that each act on every entry alone, so what it stores at an entry is `Binning.bin` of
  what it loaded there (`payload_eq`). Input and output blocks sit at the same rows (`block_index`), so what
  point `t` writes back is block `t` of the array `rows` = `bin` of the re-read argument, entry by entry
  (`flushed_rows`); row `r` lies in the block of point `r / 256`, so the blocks cover the output
  (`rows_covered`) and the region's result is `rows` (`region_result`). Finally an entry-by-entry function
  commutes with a re-reading, and re-reading there and back is the identity, so the program's result is `bin`
  of `x` at every index (`result_eq`).
-/
import proofs.«174053_j15771119911450_1_alg».proof.Proof.Gen.KernelIdeal.Frame
import proofs.«174053_j15771119911450_1_alg».proof.Proof.Binning
import Idealize.ShloMosaic.Lib.Pipeline.Value
import Idealize.ShloMosaic.Lib.StableHlo.Run

noncomputable section

namespace Cert.KernelIdeal.Bins

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's one load and one store start at the block's corner. -/
theorem corner : (![0, 0] : Fin 2 → Nat) = fun _ => 0 := funext fun a => by fin_cases a <;> rfl

/-- What the body stores at an entry is `bin` of what it loaded there: every operation of the body acts on
    each entry alone, and the re-reading of the block at its own shape changes nothing. -/
theorem payload_eq (v0 : Vec F S256x4096 .f32) : k0_pay1 v0 = fun j => Cert.Binning.bin (v0 j) := by
  unfold k0_pay1
  dsimp only
  rw [shapeCast_self]
  rfl

/-- Both windows' block at point `t` is block row `t`, block column 0. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The region's result as one array: `bin` of the re-read argument, entry by entry. -/
def rows (c : Dev nD) : S32768x4096.Idx → Elt F .f32 := fun j => Cert.Binning.bin (V m c main_v0 j)

/-- What point `t` writes back is block `t` of `rows`. -/
theorem flushed_rows (c : Dev nD) (t : Fin cfg0.N) :
    (dats m 0 c).flushed 1 t = ((cfg0.win 1).blk t).view.read (Elt F) (rows m c) := by
  show (cfg0.win 1).cut (grid0.coords t) ((dats m 0 c).after 1 t) = _
  rw [after0_1]
  unfold out0_1
  rw [View.canon_unit_zero corner]
  simp only [View.ld_unit_zero (S := S256x4096) corner]
  rw [payload_eq]
  obtain ⟨e0, e1, e2, e3⟩ := block_index t
  funext j
  show Cert.Binning.bin (V m c main_v0 (((cfg0.win 0).blk t).view.emb j)) = Cert.Binning.bin (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 256 + 1 * (j 0).val = win0_1.index t (0 : Fin 2) * 256 + 1 * (j 0).val; omega
    | ⟨1, _⟩ => show win0_0.index t (1 : Fin 2) * 4096 + 1 * (j 1).val = win0_1.index t (1 : Fin 2) * 4096 + 1 * (j 1).val; omega
  rw [h0]

/-- An index of the output lies in point `t`'s block iff each coordinate is in the block's range. -/
theorem mem_block (t : Fin cfg0.N) (i : S32768x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v1).slice (win0_1.rect t)).set ↔ _
  rw [View.set_slice_whole, Rect.mem_set_unit]
  exact Iff.rfl

/-- Every index of the output is in some point's block: row `r` is in the block of point `r / 256`. -/
theorem rows_covered (i : S32768x4096.Idx) :
    ∃ t : Fin cfg0.N, (cfg0.win 1).flush t = true ∧ i ∈ ((cfg0.win 1).blk t).view.set := by
  have hi0 : (i 0).val < 32768 := (i 0).isLt
  have hi1 : (i 1).val < 4096 := (i 1).isLt
  have hN : grid0.N = 128 := N_0
  let t : Fin cfg0.N := ⟨(i 0).val / 256, by show _ < grid0.N; omega⟩
  obtain ⟨e0, e1, e2, e3⟩ := block_index t
  have ht : t.val = (i 0).val / 256 := rfl
  refine ⟨t, flush0_1 t, ?_⟩
  rw [mem_block]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 4096 ≤ (i 1).val ∧ (i 1).val < win0_1.index t (1 : Fin 2) * 4096 + 4096; omega

/-- The region's output array after the run is `rows`. -/
theorem region_result (c : Dev nD) : (dats m 0 c).arrAt 1 cfg0.N = rows m c :=
  (dats m 0 c).arrAt_eq_of_cover 1 (rows m c) (fun t _ => flushed_rows m c t) rows_covered

/-- The region finds its input at the argument re-read as 32768 rows of 4096. -/
theorem entry_rows (c : Dev nD) :
    (V m c main_v0 : S32768x4096.Idx → Elt F .f32)
      = shapeCast S32768x4096 (m ((c : Thread nD τ).loc main_arg0)) shapeCasts_S8x4096x4096_S32768x4096 := by
  show StableHlo.after hostOps0 (fun b => m (c, b)) (Proc.devRef .tc main_v0) = _
  after_results
  rfl

/-- The program's result: the region's output re-read at the argument's shape, which is `bin` of the
    argument entry by entry. -/
theorem result_eq (c : Dev nD) :
    Pipeline.afterTail₀ cfgs (dats m) 0 (V0 m) [hostOps1] c main_v2
      = fun i => Cert.Binning.bin (m ((c : Thread nD τ).loc main_arg0) i) := by
  have hw : Pipeline.withArrays spec0 c (V0 m c) (fun w => (dats m 0 c).arrAt w cfg0.N) (Proc.devRef .tc main_v1) = rows m c :=
    (Pipeline.withArrays_arr spec0 launch0.win.arr_inj c _ _ 1).trans (region_result m c)
  unfold Pipeline.afterTail₀
  show StableHlo.after hostOps1 _ (Proc.devRef .tc main_v2) = _
  after_results
  show shapeCast S8x4096x4096 (Pipeline.withArrays spec0 c (V0 m c) (fun w => (dats m 0 c).arrAt w cfg0.N) (Proc.devRef .tc main_v1))
      shapeCasts_S32768x4096_S8x4096x4096 = _
  rw [hw]
  unfold rows
  rw [entry_rows]
  refine (Cert.Binning.shapeCast_map Cert.Binning.bin _ _).trans (funext fun i => congrArg Cert.Binning.bin ?_)
  exact congrFun (shapeCast_shapeCast (m ((c : Thread nD τ).loc main_arg0)) shapeCasts_S8x4096x4096_S32768x4096
    shapeCasts_S32768x4096_S8x4096x4096) i

/-- The kernel's run, read: every weakly fair execution terminates with the result array at `bin` of the
    argument, entry by entry, and the argument unchanged. -/
theorem run : θ_run defs (onTc (τ := τ) (main (F := F))) ⟨m, fun _ => 0, ρ⟩ fun r => ∀ c : Dev nD,
      r.2.mem ((c : Thread nD τ).loc main_v2) = (fun i => Cert.Binning.bin (m ((c : Thread nD τ).loc main_arg0) i))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.Bins

end
-- ==== Proof.ReferenceBins.lean ====
/-
  The reference's result, entry by entry, is the binning function of the argument's entry.

  Its program is a chain of whole-array operations — a quotient by θ, a ceiling, a subtraction of one, a
  product with θ, two comparisons and two selections — each acting on every entry alone, its scalar
  constants spread over the array. Read at one index `i` the chain is therefore the same chain of scalar
  operations on `x i`. At the extended reals the host's quotient and ceiling are the kernel's, so the only
  difference from `Binning.bin` is the upper threshold, which the reference computes as θ · 16: that
  product is the literal `u` (`Binning.tenth_mul_sixteen`).
-/
import proofs.«174053_j15771119911450_1_alg».proof.Proof.Gen.ReferenceIdeal.Read
import proofs.«174053_j15771119911450_1_alg».proof.Proof.Binning

noncomputable section

namespace Cert.ReferenceIdeal.Bins

open Cert.ReferenceIdeal Cert.ReferenceIdeal.Read Idealize.ShloMosaic

/-- The last stage of the reference at index `i` is `bin (x i)`. -/
theorem result_apply (x : (⟨S8x4096x4096, .f32⟩ : BufTy).Contents (Elt Ideal)) (i : S8x4096x4096.Idx) :
    val_main_v13 (F := Ideal) x i = Cert.Binning.bin (F := Ideal) (x i) := by
  simp only [val_main_v13_apply, val_main_v9_apply, val_main_v8_apply, val_main_cst_4_apply, val_main_call1_v1_apply,
    val_main_call1_v0_apply, val_main_cst_5_apply, val_main_v12_apply, val_main_v11_apply, val_main_v10_apply,
    val_main_v0_apply, val_main_cst_apply, val_main_cst_0_apply, val_main_v7_apply, val_main_v5_apply, val_main_v3_apply,
    val_main_v2_apply, val_main_v1_apply, val_main_cst_1_apply, val_main_v4_apply, val_main_cst_2_apply, val_main_v6_apply,
    val_main_cst_3_apply]
  unfold Cert.Binning.bin
  simp only [Ideal.mulf_def, Ideal.ofBits_def, Cert.Binning.tenth_mul_sixteen]
  rfl

/-- So the whole result array is `bin` applied entry by entry. -/
theorem result_eq (x : (⟨S8x4096x4096, .f32⟩ : BufTy).Contents (Elt Ideal)) :
    val_main_v13 (F := Ideal) x = fun i => Cert.Binning.bin (F := Ideal) (x i) :=
  funext fun i => result_apply x i

end Cert.ReferenceIdeal.Bins

end
-- ==== Proof.lean ====
/-
  The certificate of the binning kernel against its jnp reference.

  Both programs send every entry `x` of a [8, 4096, 4096] array to 0 when x ≤ 0, to the lower edge
  (⌈x / θ⌉ - 1) · θ of its bin of width θ when 0 < x ≤ u, and to itself above u, with θ the f32 nearest to 0.1
  and u the f32 nearest to 1.6 (`Binning.bin`). The kernel does so on 128 blocks of 256 rows of the array
  re-read as [32768, 4096] (Proof/KernelBins.lean: the blocks cover the rows, and re-reading there and back
  is the identity); the reference on the whole array at once (Proof/ReferenceBins.lean), with its upper
  threshold computed as θ · 16, which is u exactly (Proof/Binning.lean). So from memories that agree on `x`
  the two results are one array, at every extended real; the precondition is not used by the value claim.

  The frames of the two kernel programs are the generated ones; the reference's is its generated run with the
  result dropped. The idealization rewrote nothing, so `preserves` holds trivially.
-/
import proofs.«174053_j15771119911450_1_alg».proof.Defs
import proofs.«174053_j15771119911450_1_alg».proof.Proof.Gen.Kernel
import proofs.«174053_j15771119911450_1_alg».proof.Proof.Gen.Kernel.Skeleton
import proofs.«174053_j15771119911450_1_alg».proof.Proof.Gen.Kernel.Launch
import proofs.«174053_j15771119911450_1_alg».proof.Proof.Gen.Kernel.Points
import proofs.«174053_j15771119911450_1_alg».proof.Proof.Gen.Kernel.Frame
import proofs.«174053_j15771119911450_1_alg».proof.Proof.Gen.KernelIdeal
import proofs.«174053_j15771119911450_1_alg».proof.Proof.Gen.KernelIdeal.Skeleton
import proofs.«174053_j15771119911450_1_alg».proof.Proof.Gen.KernelIdeal.Launch
import proofs.«174053_j15771119911450_1_alg».proof.Proof.Gen.KernelIdeal.Points
import proofs.«174053_j15771119911450_1_alg».proof.Proof.Gen.KernelIdeal.Frame
import proofs.«174053_j15771119911450_1_alg».proof.Proof.Gen.ReferenceIdeal
import proofs.«174053_j15771119911450_1_alg».proof.Proof.Gen.Pre_finite_inputs
import proofs.«174053_j15771119911450_1_alg».proof.Proof.Gen.ReferenceIdeal.Run
import proofs.«174053_j15771119911450_1_alg».proof.Proof.Gen.ReferenceIdeal.Read
import proofs.«174053_j15771119911450_1_alg».proof.Proof.Binning
import proofs.«174053_j15771119911450_1_alg».proof.Proof.KernelBins
import proofs.«174053_j15771119911450_1_alg».proof.Proof.ReferenceBins
import Idealize.ShloMosaic.Adequacy
import Idealize.ShloMosaic.Init

noncomputable section

namespace Cert.Proof

open Idealize.ShloMosaic Idealize.SL.Sem

variable [Cert.Kernel.Facts] [Cert.KernelIdeal.Facts] [Cert.ReferenceIdeal.Facts] [Cert.Pre_finite_inputs.Facts]

/-- The word-level kernel runs and leaves `x` as it found it. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- The reference runs and leaves `x` as it found it: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on `x`, both programs end with `bin` of `x`, entry by entry. -/
theorem algebraic : Cert.algebraic_KernelIdeal_ReferenceIdeal := by
  intro m ρ m' ρ' _ hagree
  refine ⟨fun c => fun i => Cert.Binning.bin (F := Ideal) (m ((c.tc : Thread Cert.KernelIdeal.nD Cert.KernelIdeal.τ).loc Cert.KernelIdeal.main_arg0) i),
    Cert.KernelIdeal.Bins.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v13_eq, Cert.ReferenceIdeal.Bins.result_eq, hagree c]
  rfl

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernel_ideal, Cert.Proof.frame_reference, trivial, Cert.Proof.algebraic⟩

end
